-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1514x6 : Shape := ⟨3, ![32, 1514, 6]⟩
abbrev S32x512x6 : Shape := ⟨3, ![32, 512, 6]⟩
abbrev S32x512 : Shape := ⟨2, ![32, 512]⟩
abbrev S32x1602x6 : Shape := ⟨3, ![32, 1602, 6]⟩
abbrev S32x1514x1602 : Shape := ⟨3, ![32, 1514, 1602]⟩
abbrev S_ : Shape := ⟨0, ![]⟩

class Facts : Prop where
  bcast_S_S32x1514x6 : S_.BroadcastsInDim S32x1514x6 (![] : Fin 0 → Fin S32x1514x6.rank)
  reducesTo_S32x1514x6_S_d0_1_2 : S32x1514x6.ReducesTo [0, 1, 2] S_
  h_S_ : 0 < S_.numel
  bcast_S_S32x512x6 : S_.BroadcastsInDim S32x512x6 (![] : Fin 0 → Fin S32x512x6.rank)
  reducesTo_S32x512x6_S_d0_1_2 : S32x512x6.ReducesTo [0, 1, 2] S_
  bcast_S_S32x1602x6 : S_.BroadcastsInDim S32x1602x6 (![] : Fin 0 → Fin S32x1602x6.rank)
  reducesTo_S32x1602x6_S_d0_1_2 : S32x1602x6.ReducesTo [0, 1, 2] S_
  bcast_S_S32x1514x1602 : S_.BroadcastsInDim S32x1514x1602 (![] : Fin 0 → Fin S32x1514x1602.rank)
  reducesTo_S32x1514x1602_S_d0_1_2 : S32x1514x1602.ReducesTo [0, 1, 2] S_

variable [Facts]

def fn_part1 {F : FTy → Type} [FloatOps F] (main_v13 : IVec S_ 1) (main_v16 : IVec S32x1514x1602 1) : IVec S_ 1 :=
  let main_c_5 : IVec S_ 1 := constantI S_ 1 1#1
  let main_v17 : IVec S_ 1 := (fun x v => Host.reduce IntOp.andi x v reducesTo_S32x1514x1602_S_d0_1_2 h_S_) main_v16 main_c_5
  let main_v18 : IVec S_ 1 := andi main_v13 main_v17
  main_v18

def fn {F : FTy → Type} [FloatOps F] (main_arg0 : FVec F S32x1514x6 .f32) (main_arg1 : FVec F S32x512x6 .f32) (main_arg2 : IVec S32x512 32) (main_arg3 : FVec F S32x1602x6 .f32) (main_arg4 : FVec F S32x1514x1602 .f32) : IVec S_ 1 :=
  let main_v0 : FVec F S32x1514x6 .f32 := Host.absf main_arg0
  let main_cst : FVec F S_ .f32 := constant S_ .f32 0x7F800000#32
  let main_v1 : FVec F S32x1514x6 .f32 := broadcastInDim S32x1514x6 ![] bcast_S_S32x1514x6 main_cst
  let main_v2 : IVec S32x1514x6 1 := cmpf .olt main_v0 main_v1
  let main_c : IVec S_ 1 := constantI S_ 1 1#1
  let main_v3 : IVec S_ 1 := (fun x v => Host.reduce IntOp.andi x v reducesTo_S32x1514x6_S_d0_1_2 h_S_) main_v2 main_c
  let main_v4 : FVec F S32x512x6 .f32 := Host.absf main_arg1
  let main_cst_0 : FVec F S_ .f32 := constant S_ .f32 0x7F800000#32
  let main_v5 : FVec F S32x512x6 .f32 := broadcastInDim S32x512x6 ![] bcast_S_S32x512x6 main_cst_0
  let main_v6 : IVec S32x512x6 1 := cmpf .olt main_v4 main_v5
  let main_c_1 : IVec S_ 1 := constantI S_ 1 1#1
  let main_v7 : IVec S_ 1 := (fun x v => Host.reduce IntOp.andi x v reducesTo_S32x512x6_S_d0_1_2 h_S_) main_v6 main_c_1
  let main_v8 : IVec S_ 1 := andi main_v3 main_v7
  let main_v9 : FVec F S32x1602x6 .f32 := Host.absf main_arg3
  let main_cst_2 : FVec F S_ .f32 := constant S_ .f32 0x7F800000#32
  let main_v10 : FVec F S32x1602x6 .f32 := broadcastInDim S32x1602x6 ![] bcast_S_S32x1602x6 main_cst_2
  let main_v11 : IVec S32x1602x6 1 := cmpf .olt main_v9 main_v10
  let main_c_3 : IVec S_ 1 := constantI S_ 1 1#1
  let main_v12 : IVec S_ 1 := (fun x v => Host.reduce IntOp.andi x v reducesTo_S32x1602x6_S_d0_1_2 h_S_) main_v11 main_c_3
  let main_v13 : IVec S_ 1 := andi main_v8 main_v12
  let main_v14 : FVec F S32x1514x1602 .f32 := Host.absf main_arg4
  let main_cst_4 : FVec F S_ .f32 := constant S_ .f32 0x7F800000#32
  let main_v15 : FVec F S32x1514x1602 .f32 := broadcastInDim S32x1514x1602 ![] bcast_S_S32x1514x1602 main_cst_4
  let main_v16 : IVec S32x1514x1602 1 := cmpf .olt main_v14 main_v15
  fn_part1 (F := F) main_v13 main_v16
-- ==== Kernel.lean ====
abbrev S32x1514x6 : Shape := ⟨3, ![32, 1514, 6]⟩
abbrev S32x512x6 : Shape := ⟨3, ![32, 512, 6]⟩
abbrev S32x512 : Shape := ⟨2, ![32, 512]⟩
abbrev S32x1602x6 : Shape := ⟨3, ![32, 1602, 6]⟩
abbrev S32x1514x1602 : Shape := ⟨3, ![32, 1514, 1602]⟩
abbrev S1x1 : Shape := ⟨2, ![1, 1]⟩
abbrev S1x1514x1602 : Shape := ⟨3, ![1, 1514, 1602]⟩
abbrev S1x1602x6 : Shape := ⟨3, ![1, 1602, 6]⟩
abbrev S1x1514x6 : Shape := ⟨3, ![1, 1514, 6]⟩
abbrev S1514x1602 : Shape := ⟨2, ![1514, 1602]⟩
abbrev S1602x6 : Shape := ⟨2, ![1602, 6]⟩
abbrev S1514x6 : Shape := ⟨2, ![1514, 6]⟩
abbrev S6 : Shape := ⟨1, ![6]⟩
abbrev S1x6 : Shape := ⟨2, ![1, 6]⟩
abbrev S1 : Shape := ⟨1, ![1]⟩
abbrev S_ : Shape := ⟨0, ![]⟩
abbrev S32x512x1 : Shape := ⟨3, ![32, 512, 1]⟩
abbrev S32x512x6x1 : Shape := ⟨4, ![32, 512, 6, 1]⟩
abbrev S1x1x1x1 : Shape := ⟨4, ![1, 1, 1, 1]⟩

abbrev nBuf : Space → Nat
  | .hbm => 56
  | .vmem => 7
  | .smem => 0
  | _ => 0

abbrev bufTy : (tb : Table) → Fin (tcTables nBuf tb) → BufTy
  | .hbm, ⟨0, _⟩ => ⟨S32x1514x6, .f32⟩
  | .hbm, ⟨1, _⟩ => ⟨S32x512x6, .f32⟩
  | .hbm, ⟨2, _⟩ => ⟨S32x512, .i32⟩
  | .hbm, ⟨3, _⟩ => ⟨S32x1602x6, .f32⟩
  | .hbm, ⟨4, _⟩ => ⟨S32x1514x1602, .f32⟩
  | .hbm, ⟨5, _⟩ => ⟨S1x1, .f32⟩
  | .hbm, ⟨6, _⟩ => ⟨S_, .f32⟩
  | .hbm, ⟨7, _⟩ => ⟨S32x512x1, .i32⟩
  | .hbm, ⟨8, _⟩ => ⟨S32x512x6, .i32⟩
  | .hbm, ⟨9, _⟩ => ⟨S_, .i32⟩
  | .hbm, ⟨10, _⟩ => ⟨S32x512x6, .i32⟩
  | .hbm, ⟨11, _⟩ => ⟨S32x512x6, .i1⟩
  | .hbm, ⟨12, _⟩ => ⟨S_, .i32⟩
  | .hbm, ⟨13, _⟩ => ⟨S32x512x6, .i32⟩
  | .hbm, ⟨14, _⟩ => ⟨S32x512x6, .i32⟩
  | .hbm, ⟨15, _⟩ => ⟨S32x512x6, .i32⟩
  | .hbm, ⟨16, _⟩ => ⟨S32x512x6x1, .i32⟩
  | .hbm, ⟨17, _⟩ => ⟨S1, .i32⟩
  | .hbm, ⟨18, _⟩ => ⟨S_, .i32⟩
  | .hbm, ⟨19, _⟩ => ⟨S32x512x6x1, .i32⟩
  | .hbm, ⟨20, _⟩ => ⟨S32x512x6x1, .i1⟩
  | .hbm, ⟨21, _⟩ => ⟨S1x1x1x1, .i32⟩
  | .hbm, ⟨22, _⟩ => ⟨S32x512x6x1, .i32⟩
  | .hbm, ⟨23, _⟩ => ⟨S32x512x6x1, .i1⟩
  | .hbm, ⟨24, _⟩ => ⟨S32x512x6x1, .i1⟩
  | .hbm, ⟨25, _⟩ => ⟨S_, .i1⟩
  | .hbm, ⟨26, _⟩ => ⟨S32x512x6, .i1⟩
  | .hbm, ⟨27, _⟩ => ⟨S32x512x6, .f32⟩
  | .hbm, ⟨28, _⟩ => ⟨S_, .f32⟩
  | .hbm, ⟨29, _⟩ => ⟨S32x512x6, .f32⟩
  | .hbm, ⟨30, _⟩ => ⟨S32x512x6, .f32⟩
  | .hbm, ⟨31, _⟩ => ⟨S_, .f32⟩
  | .hbm, ⟨32, _⟩ => ⟨S32x512, .f32⟩
  | .hbm, ⟨33, _⟩ => ⟨S32x512x1, .f32⟩
  | .hbm, ⟨34, _⟩ => ⟨S32x512x6, .f32⟩
  | .hbm, ⟨35, _⟩ => ⟨S32x512x6, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S32x512x6, .f32⟩
  | .hbm, ⟨40, _⟩ => ⟨S32x512x6, .f32⟩
  | .hbm, ⟨41, _⟩ => ⟨S_, .f32⟩
  | .hbm, ⟨42, _⟩ => ⟨S32x512x6, .f32⟩
  | .hbm, ⟨43, _⟩ => ⟨S32x512x6, .f32⟩
  | .hbm, ⟨44, _⟩ => ⟨S32x512x6, .f32⟩
  | .hbm, ⟨45, _⟩ => ⟨S32x512x6, .f32⟩
  | .hbm, ⟨46, _⟩ => ⟨S_, .f32⟩
  | .hbm, ⟨47, _⟩ => ⟨S32x512, .f32⟩
  | .hbm, ⟨48, _⟩ => ⟨S32x512, .f32⟩
  | .hbm, ⟨49, _⟩ => ⟨S_, .f32⟩
  | .hbm, ⟨50, _⟩ => ⟨S32x512, .f32⟩
  | .hbm, ⟨51, _⟩ => ⟨S32x512, .f32⟩
  | .hbm, ⟨52, _⟩ => ⟨S_, .f32⟩
  | .hbm, ⟨53, _⟩ => ⟨S_, .f32⟩
  | .hbm, ⟨54, _⟩ => ⟨S32x512, .f32⟩
  | .hbm, ⟨55, _⟩ => ⟨S32x512, .f32⟩
  | .local _ .vmem, ⟨0, _⟩ => ⟨S1x1514x1602, .f32⟩
  | .local _ .vmem, ⟨1, _⟩ => ⟨S1x1514x1602, .f32⟩
  | .local _ .vmem, ⟨2, _⟩ => ⟨S1x1602x6, .f32⟩
  | .local _ .vmem, ⟨3, _⟩ => ⟨S1x1602x6, .f32⟩
  | .local _ .vmem, ⟨4, _⟩ => ⟨S1x1514x6, .f32⟩
  | .local _ .vmem, ⟨5, _⟩ => ⟨S1x1514x6, .f32⟩
  | .local _ .vmem, ⟨6, _⟩ => ⟨S1x1, .f32⟩
  | _, _ => ⟨S32x1514x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst_0 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_2 : Ref sig .tc := ⟨.hbm, 46, rfl⟩
abbrev main_v12 : Ref sig .tc := ⟨.hbm, 47, rfl⟩
abbrev main_v13 : Ref sig .tc := ⟨.hbm, 48, rfl⟩
abbrev main_cst_3 : Ref sig .tc := ⟨.hbm, 49, rfl⟩
abbrev main_v14 : Ref sig .tc := ⟨.hbm, 50, rfl⟩
abbrev main_v15 : Ref sig .tc := ⟨.hbm, 51, rfl⟩
abbrev main_cst_4 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1514x1602 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1602x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1514x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1x1514x1602_S1x1514x1602_0_0_0 : ∀ a, (![0, 0, 0] : Fin 3 → Nat) a + S1x1514x1602.size a ≤ S1x1514x1602.size a
  h_S1x1514x1602 : 0 < S1x1514x1602.numel
  shapeCasts_S1x1514x1602_S1514x1602 : S1x1514x1602.ShapeCasts S1514x1602
  bitsLt_bf16_f32 : FTy.bits .bf16 < FTy.bits .f32
  inb_S1x1602x6_S1x1602x6_0_0_0 : ∀ a, (![0, 0, 0] : Fin 3 → Nat) a + S1x1602x6.size a ≤ S1x1602x6.size a
  h_S1x1602x6 : 0 < S1x1602x6.numel
  shapeCasts_S1x1602x6_S1602x6 : S1x1602x6.ShapeCasts S1602x6
  inb_S1x1514x6_S1x1514x6_0_0_0 : ∀ a, (![0, 0, 0] : Fin 3 → Nat) a + S1x1514x6.size a ≤ S1x1514x6.size a
  h_S1x1514x6 : 0 < S1x1514x6.numel
  shapeCasts_S1x1514x6_S1514x6 : S1x1514x6.ShapeCasts S1514x6
  reduces_S1514x6_S6 : S1514x6.Reduces [0] S6
  shapeCasts_S6_S1x6 : S6.ShapeCasts S1x6
  reduces_S1x6_S1 : S1x6.Reduces [1] S1
  shapeCasts_S1_S1x1 : S1.ShapeCasts S1x1
  shapeCasts_S1x1_S1x1 : S1x1.ShapeCasts S1x1
  shapeCasts_S1x1_S_ : S1x1.ShapeCasts S_
  bcast_S32x512_S32x512x1_0_1 : S32x512.BroadcastsInDim S32x512x1 (![0, 1] : Fin 2 → Fin S32x512x1.rank)
  bcast_S32x512x1_S32x512x6_0_1_2 : S32x512x1.BroadcastsInDim S32x512x6 (![0, 1, 2] : Fin 3 → Fin S32x512x6.rank)
  bcast_S_S32x512x6 : S_.BroadcastsInDim S32x512x6 (![] : Fin 0 → Fin S32x512x6.rank)
  shapeCasts_S32x512x6_S32x512x6x1 : S32x512x6.ShapeCasts S32x512x6x1
  bcast_S_S32x512x6x1 : S_.BroadcastsInDim S32x512x6x1 (![] : Fin 0 → Fin S32x512x6x1.rank)
  bcast_S1_S1x1x1x1_3 : S1.BroadcastsInDim S1x1x1x1 (![3] : Fin 1 → Fin S1x1x1x1.rank)
  bcast_S1x1x1x1_S32x512x6x1_0_1_2_3 : S1x1x1x1.BroadcastsInDim S32x512x6x1 (![0, 1, 2, 3] : Fin 4 → Fin S32x512x6x1.rank)
  reducesTo_S32x512x6x1_S32x512x6_d3 : S32x512x6x1.ReducesTo [3] S32x512x6
  h_S_ : 0 < S_.numel
  reducesTo_S32x512x6_S32x512_d2 : S32x512x6.ReducesTo [2] S32x512
  bcast_S_S32x512 : S_.BroadcastsInDim S32x512 (![] : Fin 0 → Fin S32x512.rank)
  dot_S1514x1602_S1602x6_S1514x6_1_0_0_1_n_n_wf : DotDims.WF S1514x1602 S1602x6 S1514x6 [1] [0] [0] [1] [] []
  gather_S32x1514x6_S32x512x6x1_S32x512x6_n_1_02_02_1_3_111_wf : GatherDims.WF S32x1514x6 S32x512x6x1 S32x512x6 [] [1] [0, 2] [1] [0, 2] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1514x1602.size a ≤ S32x1514x1602.size a
  hwx0_0 : ∀ i : grid0.Coords, EltTy.bits .f32 = 32 ∨ (Rect.block (s := S32x1514x1602) S1x1514x1602.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1602x6.size a ≤ S32x1602x6.size a
  hwx0_1 : ∀ i : grid0.Coords, EltTy.bits .f32 = 32 ∨ (Rect.block (s := S32x1602x6) S1x1602x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1514x6.size a ≤ S32x1514x6.size a
  hwx0_2 : ∀ i : grid0.Coords, EltTy.bits .f32 = 32 ∨ (Rect.block (s := S32x1514x6) S1x1514x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1514x1602_S1602x6_S1514x6_1_0_0_1_n_n : DotDims S1514x1602 S1602x6 S1514x6 where
  lhsContracting := [1]
  rhsContracting := [0]
  lhsNonContracting := [0]
  rhsNonContracting := [1]
  lhsBatch := []
  rhsBatch := []
  wf := dot_S1514x1602_S1602x6_S1514x6_1_0_0_1_n_n_wf
def gather_S32x1514x6_S32x512x6x1_S32x512x6_n_1_02_02_1_3_111 : GatherDims S32x1514x6 S32x512x6x1 S32x512x6 where
  offsetDims := []
  collapsedSliceDims := [1]
  operandBatchingDims := [0, 2]
  startIndicesBatchingDims := [0, 2]
  startIndexMap := [1]
  indexVectorDim := 3
  sliceSizes := ![1, 1, 1]
  wf := gather_S32x1514x6_S32x512x6x1_S32x512x6_n_1_02_02_1_3_111_wf

abbrev win0_0 : Pipeline.Window sig grid0 :=
  Pipeline.Window.ofSpec (Memref.whole main_arg4) S1x1514x1602.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1602x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1514x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1514x6 : Shape := ⟨3, ![32, 1514, 6]⟩
abbrev S32x512x6 : Shape := ⟨3, ![32, 512, 6]⟩
abbrev S32x512 : Shape := ⟨2, ![32, 512]⟩
abbrev S32x1602x6 : Shape := ⟨3, ![32, 1602, 6]⟩
abbrev S32x1514x1602 : Shape := ⟨3, ![32, 1514, 1602]⟩
abbrev S_ : Shape := ⟨0, ![]⟩
abbrev S32x512x1 : Shape := ⟨3, ![32, 512, 1]⟩
abbrev S32x512x6x1 : Shape := ⟨4, ![32, 512, 6, 1]⟩
abbrev S1 : Shape := ⟨1, ![1]⟩
abbrev S1x1x1x1 : Shape := ⟨4, ![1, 1, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S32x1514x6, .f32⟩
  | .hbm, ⟨1, _⟩ => ⟨S32x512x6, .f32⟩
  | .hbm, ⟨2, _⟩ => ⟨S32x512, .i32⟩
  | .hbm, ⟨3, _⟩ => ⟨S32x1602x6, .f32⟩
  | .hbm, ⟨4, _⟩ => ⟨S32x1514x1602, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x1602x6, .f32⟩
  | .hbm, ⟨9, _⟩ => ⟨S32x1602x6, .f32⟩
  | .hbm, ⟨10, _⟩ => ⟨S_, .f32⟩
  | .hbm, ⟨11, _⟩ => ⟨S32x1602x6, .f32⟩
  | .hbm, ⟨12, _⟩ => ⟨S32x1602x6, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32x1602x6, .f32⟩
  | .hbm, ⟨17, _⟩ => ⟨S32x1602x6, .f32⟩
  | .hbm, ⟨18, _⟩ => ⟨S_, .f32⟩
  | .hbm, ⟨19, _⟩ => ⟨S32x1602x6, .f32⟩
  | .hbm, ⟨20, _⟩ => ⟨S32x1602x6, .f32⟩
  | .hbm, ⟨21, _⟩ => ⟨S32x1514x6, .f32⟩
  | .hbm, ⟨22, _⟩ => ⟨S32x1514x6, .f32⟩
  | .hbm, ⟨23, _⟩ => ⟨S_, .f32⟩
  | .hbm, ⟨24, _⟩ => ⟨S32x1514x6, .f32⟩
  | .hbm, ⟨25, _⟩ => ⟨S32x1514x6, .f32⟩
  | .hbm, ⟨26, _⟩ => ⟨S32x1514x6, .f32⟩
  | .hbm, ⟨27, _⟩ => ⟨S_, .f32⟩
  | .hbm, ⟨28, _⟩ => ⟨S_, .f32⟩
  | .hbm, ⟨29, _⟩ => ⟨S32x1514x6, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32x512x1, .i32⟩
  | .hbm, ⟨34, _⟩ => ⟨S32x512x6, .i32⟩
  | .hbm, ⟨35, _⟩ => ⟨S_, .i32⟩
  | .hbm, ⟨36, _⟩ => ⟨S32x512x6, .i32⟩
  | .hbm, ⟨37, _⟩ => ⟨S32x512x6, .i1⟩
  | .hbm, ⟨38, _⟩ => ⟨S_, .i32⟩
  | .hbm, ⟨39, _⟩ => ⟨S32x512x6, .i32⟩
  | .hbm, ⟨40, _⟩ => ⟨S32x512x6, .i32⟩
  | .hbm, ⟨41, _⟩ => ⟨S32x512x6, .i32⟩
  | .hbm, ⟨42, _⟩ => ⟨S32x512x6x1, .i32⟩
  | .hbm, ⟨43, _⟩ => ⟨S1, .i32⟩
  | .hbm, ⟨44, _⟩ => ⟨S_, .i32⟩
  | .hbm, ⟨45, _⟩ => ⟨S32x512x6x1, .i32⟩
  | .hbm, ⟨46, _⟩ => ⟨S32x512x6x1, .i1⟩
  | .hbm, ⟨47, _⟩ => ⟨S1x1x1x1, .i32⟩
  | .hbm, ⟨48, _⟩ => ⟨S32x512x6x1, .i32⟩
  | .hbm, ⟨49, _⟩ => ⟨S32x512x6x1, .i1⟩
  | .hbm, ⟨50, _⟩ => ⟨S32x512x6x1, .i1⟩
  | .hbm, ⟨51, _⟩ => ⟨S_, .i1⟩
  | .hbm, ⟨52, _⟩ => ⟨S32x512x6, .i1⟩
  | .hbm, ⟨53, _⟩ => ⟨S32x512x6, .f32⟩
  | .hbm, ⟨54, _⟩ => ⟨S_, .f32⟩
  | .hbm, ⟨55, _⟩ => ⟨S32x512x6, .f32⟩
  | .hbm, ⟨56, _⟩ => ⟨S32x512x6, .f32⟩
  | .hbm, ⟨57, _⟩ => ⟨S_, .f32⟩
  | .hbm, ⟨58, _⟩ => ⟨S32x512, .f32⟩
  | .hbm, ⟨59, _⟩ => ⟨S32x512x1, .f32⟩
  | .hbm, ⟨60, _⟩ => ⟨S32x512x6, .f32⟩
  | .hbm, ⟨61, _⟩ => ⟨S32x512x6, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S32x512x6, .f32⟩
  | .hbm, ⟨66, _⟩ => ⟨S32x512x6, .f32⟩
  | .hbm, ⟨67, _⟩ => ⟨S_, .f32⟩
  | .hbm, ⟨68, _⟩ => ⟨S32x512x6, .f32⟩
  | .hbm, ⟨69, _⟩ => ⟨S32x512x6, .f32⟩
  | .hbm, ⟨70, _⟩ => ⟨S32x512x6, .f32⟩
  | .hbm, ⟨71, _⟩ => ⟨S32x512x6, .f32⟩
  | .hbm, ⟨72, _⟩ => ⟨S_, .f32⟩
  | .hbm, ⟨73, _⟩ => ⟨S32x512, .f32⟩
  | .hbm, ⟨74, _⟩ => ⟨S32x512, .f32⟩
  | .hbm, ⟨75, _⟩ => ⟨S_, .f32⟩
  | .hbm, ⟨76, _⟩ => ⟨S32x512, .f32⟩
  | .hbm, ⟨77, _⟩ => ⟨S32x512, .f32⟩
  | .hbm, ⟨78, _⟩ => ⟨S_, .f32⟩
  | .hbm, ⟨79, _⟩ => ⟨S_, .f32⟩
  | .hbm, ⟨80, _⟩ => ⟨S32x512, .f32⟩
  | .hbm, ⟨81, _⟩ => ⟨S32x512, .f32⟩
  | _, _ => ⟨S32x1514x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_4 : Ref sig .tc := ⟨.hbm, 27, rfl⟩
abbrev main_v7 : Ref sig .tc := ⟨.hbm, 28, rfl⟩
abbrev main_v8 : Ref sig .tc := ⟨.hbm, 29, rfl⟩
abbrev main_cst_5 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v13 : Ref sig .tc := ⟨.hbm, 56, rfl⟩
abbrev main_cst_6 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_7 : Ref sig .tc := ⟨.hbm, 62, rfl⟩
abbrev main_cst_8 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst_9 : Ref sig .tc := ⟨.hbm, 72, rfl⟩
abbrev main_v21 : Ref sig .tc := ⟨.hbm, 73, rfl⟩
abbrev main_v22 : Ref sig .tc := ⟨.hbm, 74, rfl⟩
abbrev main_cst_10 : Ref sig .tc := ⟨.hbm, 75, rfl⟩
abbrev main_v23 : Ref sig .tc := ⟨.hbm, 76, rfl⟩
abbrev main_v24 : Ref sig .tc := ⟨.hbm, 77, rfl⟩
abbrev main_cst_11 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩

abbrev nD : Nat := 1
abbrev τ : Topo := Topo.v7x

variable {F : FTy → Type} [FloatOps F]

class Facts₀ : Prop where
  bcast_S_S32x1602x6 : S_.BroadcastsInDim S32x1602x6 (![] : Fin 0 → Fin S32x1602x6.rank)
  bcast_S_S32x1514x6 : S_.BroadcastsInDim S32x1514x6 (![] : Fin 0 → Fin S32x1514x6.rank)
  reducesTo_S32x1514x6_S_d0_1_2 : S32x1514x6.ReducesTo [0, 1, 2] S_
  h_S_ : 0 < S_.numel
  bcast_S32x512_S32x512x1_0_1 : S32x512.BroadcastsInDim S32x512x1 (![0, 1] : Fin 2 → Fin S32x512x1.rank)
  bcast_S32x512x1_S32x512x6_0_1_2 : S32x512x1.BroadcastsInDim S32x512x6 (![0, 1, 2] : Fin 3 → Fin S32x512x6.rank)
  bcast_S_S32x512x6 : S_.BroadcastsInDim S32x512x6 (![] : Fin 0 → Fin S32x512x6.rank)
  shapeCasts_S32x512x6_S32x512x6x1 : S32x512x6.ShapeCasts S32x512x6x1
  bcast_S_S32x512x6x1 : S_.BroadcastsInDim S32x512x6x1 (![] : Fin 0 → Fin S32x512x6x1.rank)
  bcast_S1_S1x1x1x1_3 : S1.BroadcastsInDim S1x1x1x1 (![3] : Fin 1 → Fin S1x1x1x1.rank)
  bcast_S1x1x1x1_S32x512x6x1_0_1_2_3 : S1x1x1x1.BroadcastsInDim S32x512x6x1 (![0, 1, 2, 3] : Fin 4 → Fin S32x512x6x1.rank)
  reducesTo_S32x512x6x1_S32x512x6_d3 : S32x512x6x1.ReducesTo [3] S32x512x6
  reducesTo_S32x512x6_S32x512_d2 : S32x512x6.ReducesTo [2] S32x512
  bcast_S_S32x512 : S_.BroadcastsInDim S32x512 (![] : Fin 0 → Fin S32x512.rank)
  dot_S32x1514x1602_S32x1602x6_S32x1514x6_2_1_1_2_0_0_wf : DotDims.WF S32x1514x1602 S32x1602x6 S32x1514x6 [2] [1] [1] [2] [0] [0]
  gather_S32x1514x6_S32x512x6x1_S32x512x6_n_1_02_02_1_3_111_wf : GatherDims.WF S32x1514x6 S32x512x6x1 S32x512x6 [] [1] [0, 2] [1] [0, 2] 3 ![1, 1, 1]

variable [Facts₀]

def dot_S32x1514x1602_S32x1602x6_S32x1514x6_2_1_1_2_0_0 : DotDims S32x1514x1602 S32x1602x6 S32x1514x6 where
  lhsContracting := [2]
  rhsContracting := [1]
  lhsNonContracting := [1]
  rhsNonContracting := [2]
  lhsBatch := [0]
  rhsBatch := [0]
  wf := dot_S32x1514x1602_S32x1602x6_S32x1514x6_2_1_1_2_0_0_wf
def gather_S32x1514x6_S32x512x6x1_S32x512x6_n_1_02_02_1_3_111 : GatherDims S32x1514x6 S32x512x6x1 S32x512x6 where
  offsetDims := []
  collapsedSliceDims := [1]
  operandBatchingDims := [0, 2]
  startIndicesBatchingDims := [0, 2]
  startIndexMap := [1]
  indexVectorDim := 3
  sliceSizes := ![1, 1, 1]
  wf := gather_S32x1514x6_S32x512x6x1_S32x512x6_n_1_02_02_1_3_111_wf

class Facts : Prop extends Facts₀ where

variable [Facts]
-- ==== Proof.RefImports.lean ====
/-
  The reference program's run and its operations read at an index, gathered for the modules that compare the
  reference's loss with the kernel's.
-/
import proofs.«127729_j12687333393051_1_alg».proof.Defs
import proofs.«127729_j12687333393051_1_alg».proof.Proof.RefRun
import proofs.«127729_j12687333393051_1_alg».proof.Proof.RefRead
-- ==== Proof.SharedTail.lean ====
/-
  What both programs do with the scalar second loss after it is computed.

  Both programs return  0.9 · loss1 + 0.1 · loss2  (the scalar loss2 broadcast over the (32, 512) result) and the
  gathered predictions, where loss1 — the gather along axis 1, the row normalisation, the clip, the logarithm, the
  weighted row sum — does not depend on loss2.  The two functions are named here once, over the reference's stages,
  so that neither side ever opens them: the two programs are compared by comparing the scalars that go in.
-/
import proofs.«127729_j12687333393051_1_alg».proof.Proof.RefRead

noncomputable section

open Idealize.ShloMosaic Idealize.ShloMosaic.TcCoe

namespace Cert.Loss

open Cert.ReferenceIdeal Cert.ReferenceIdeal.Gen Cert.ReferenceIdeal.ReadP

variable {F : FTy → Type} [FloatOps F]

/-- The returned loss as a function of the scalar second loss `l2` and of the prediction, target and index arrays. -/
def mix (l2 : (⟨S_, .f32⟩ : BufTy).Contents (Elt F)) (x0 : (⟨S32x1514x6, .f32⟩ : BufTy).Contents (Elt F))
    (x1 : (⟨S32x512x6, .f32⟩ : BufTy).Contents (Elt F)) (x2 : (⟨S32x512, .i32⟩ : BufTy).Contents (Elt F)) :
    (⟨S32x512, .f32⟩ : BufTy).Contents (Elt F) :=
  addf (val_main_v24 (F := F) x0 x1 x2)
    (broadcastInDim S32x512 ![] bcast_S_S32x512 (mulf (val_main_cst_11 (F := F)) l2))

/-- The gathered predictions. -/
def pred (x0 : (⟨S32x1514x6, .f32⟩ : BufTy).Contents (Elt F)) (x2 : (⟨S32x512, .i32⟩ : BufTy).Contents (Elt F)) :
    (⟨S32x512x6, .f32⟩ : BufTy).Contents (Elt F) :=
  val_main_v13 (F := F) x0 x2

/-- The reference's returned loss is `mix` of its own scalar second loss. -/
theorem ref_mix (x0 : (⟨S32x1514x6, .f32⟩ : BufTy).Contents (Elt F)) (x1 : (⟨S32x512x6, .f32⟩ : BufTy).Contents (Elt F))
    (x2 : (⟨S32x512, .i32⟩ : BufTy).Contents (Elt F)) (x3 : (⟨S32x1602x6, .f32⟩ : BufTy).Contents (Elt F))
    (x4 : (⟨S32x1514x1602, .f32⟩ : BufTy).Contents (Elt F)) :
    val_main_v27 (F := F) x0 x1 x2 x3 x4 = mix (val_main_v10 (F := F) x0 x3 x4) x0 x1 x2 := rfl

end Cert.Loss

end
-- ==== Proof.KernelTail.lean ====
/-
  The kernel program's two results after the host operations that follow the region.

  After the region the host reshapes the (1,1) result array to a scalar  l2,  gathers the predictions along axis 1,
  and forms  0.9 · loss1 + 0.1 · l2.  These are the same operations, on the same argument arrays, as the
  reference's: the returned loss is `Loss.mix` of the reshaped result array and the gathered predictions are
  `Loss.pred`.  The prediction array is one of the region's inputs and ends as launched; the target and index
  arrays are not touched by the region.
-/
import proofs.«127729_j12687333393051_1_alg».proof.Proof.Gen.KernelIdeal.Frame
import proofs.«127729_j12687333393051_1_alg».proof.Proof.SharedTail
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- What the host operations after the region find in each buffer they read from outside their own results. -/
theorem read_arg0 (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_arr spec0 launch0.win.arr_inj c _ _ 2).trans
    (((dats m 0 c).arrAt_in 2 rfl _).trans ((A_eq m c 2).trans (V_main_arg0 m c)))
theorem read_arg1 (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)
theorem read_arg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)
theorem read_v0 (c : Dev nD) :
    Pipeline.withArrays (cfgs 0).spec c (V0 m c) (fun w => (dats m 0 c).arrAt w (cfgs 0).N) (Proc.devRef .tc main_v0)
      = (dats m 0 c).arrAt 3 cfg0.N :=
  Pipeline.withArrays_arr spec0 launch0.win.arr_inj c _ _ 3

/-- The scalar the host reshapes the result array to. -/
abbrev l2K (c : Dev nD) : (⟨S_, .f32⟩ : BufTy).Contents (Elt F) :=
  shapeCast S_ ((dats m 0 c).arrAt 3 cfg0.N) shapeCasts_S1x1_S_

set_option maxRecDepth 65536 in
set_option maxHeartbeats 4000000 in
/-- The gathered predictions. -/
theorem tail_pred (c : Dev nD) :
    Pipeline.afterTail₀ cfgs (dats m) 0 (V0 m) [hostOps1, hostOps1_1, hostOps1_2, hostOps1_3, hostOps1_4] c main_v4
      = Cert.Loss.pred (m ((c : Thread nD τ).loc main_arg0)) (m ((c : Thread nD τ).loc main_arg2)) := by
  unfold Pipeline.afterTail₀
  show StableHlo.after (List.flatten [hostOps1, hostOps1_1, hostOps1_2, hostOps1_3, hostOps1_4]) _ (Proc.devRef .tc main_v4) = _
  simp only [hostOps1, hostOps1_1, hostOps1_2, hostOps1_3, hostOps1_4, List.flatten_cons, List.flatten_nil, List.append_nil,
    List.cons_append, List.nil_append]
  after_results_simp
  simp only [TRef.ofBuf, TRef.toBuf, cast_eq]
  rw [read_arg0 m c, read_arg2 m c]
  rfl

set_option maxRecDepth 65536 in
set_option maxHeartbeats 4000000 in
/-- The returned loss. -/
theorem tail_loss (c : Dev nD) :
    Pipeline.afterTail₀ cfgs (dats m) 0 (V0 m) [hostOps1, hostOps1_1, hostOps1_2, hostOps1_3, hostOps1_4] c main_v18
      = Cert.Loss.mix (l2K m c) (m ((c : Thread nD τ).loc main_arg0)) (m ((c : Thread nD τ).loc main_arg1))
          (m ((c : Thread nD τ).loc main_arg2)) := by
  unfold Pipeline.afterTail₀
  show StableHlo.after (List.flatten [hostOps1, hostOps1_1, hostOps1_2, hostOps1_3, hostOps1_4]) _ (Proc.devRef .tc main_v18) = _
  simp only [hostOps1, hostOps1_1, hostOps1_2, hostOps1_3, hostOps1_4, List.flatten_cons, List.flatten_nil, List.append_nil,
    List.cons_append, List.nil_append]
  after_results_simp
  simp only [TRef.ofBuf, TRef.toBuf, cast_eq]
  rw [read_arg0 m c, read_arg1 m c, read_arg2 m c, read_v0 m c]
  rfl

end Cert.KernelIdeal.Acc

end
-- ==== Proof.KernelRun.lean ====
/-
  The kernel program's run, read: every execution ends with the returned loss at `Loss.mix` of the reshaped result
  array, the gathered predictions at `Loss.pred`, and the five argument arrays as launched.
-/
import proofs.«127729_j12687333393051_1_alg».proof.Proof.KernelTail

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

theorem kernel_run : θ_run defs (onTc (τ := τ) (main (F := F))) ⟨m, fun _ => 0, ρ⟩ (fun r => ∀ c : Dev nD,
      r.2.mem ((c.tc : Thread nD τ).loc main_v18)
        = Cert.Loss.mix (l2K m c) (m ((c.tc : Thread nD τ).loc main_arg0)) (m ((c.tc : Thread nD τ).loc main_arg1))
            (m ((c.tc : Thread nD τ).loc main_arg2))
      ∧ r.2.mem ((c.tc : Thread nD τ).loc main_v4)
        = Cert.Loss.pred (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v18 (Pipeline.mem_restRefs_of main_v18 (by decide) (by decide))).trans (tail_loss m c),
      ((h c).2 main_v4 (Pipeline.mem_restRefs_of main_v4 (by decide) (by decide))).trans (tail_pred m c),
      ((h c).1 2).trans (((dats m 0 c).arrAt_in 2 rfl _).trans ((A_eq m c 2).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 0).trans (((dats m 0 c).arrAt_in 0 rfl _).trans ((A_eq m c 0).trans (V_main_arg4 m c)))⟩)
    (run_main m ρ)

end Cert.KernelIdeal.Acc

end
-- ==== Proof.KernelPieces.lean ====
/-
  What one grid point leaves in the kernel's (1,1) accumulator block, as a function of the three input blocks.

  At the first point the body stores zero, reads it back, and stores  0 + (s1 - s2);  at every later point it
  stores  acc + (s1 - s2)  over the value  acc  the point before left.  Here  s1  and  s2  are the body's two
  scalar reductions of the point's blocks.  Both facts hold at any float instance.
-/
import proofs.«127729_j12687333393051_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point: the accumulator `xo` plus the point's difference of the two reductions. -/
theorem out_later (c : Dev nD) (i : grid0.Coords) (a1 : Memref sig .tc .vmem S1x1514x1602 .f32) (h1 : a1.IsWhole)
    (a2 : Memref sig .tc .vmem S1x1602x6 .f32) (h2 : a2.IsWhole) (a3 : Memref sig .tc .vmem S1x1514x6 .f32) (h3 : a3.IsWhole)
    (a4 : Memref sig .tc .vmem S1x1 .f32) (h4 : a4.IsWhole) (hc : ¬cond0_0 i)
    (x0 : Vec F S1x1514x1602 .f32) (x1 : Vec F S1x1602x6 .f32) (x2 : Vec F S1x1514x6 .f32) (xo : Vec F S1x1 .f32) :
    out0_B_3 c i a1 h1 a2 h2 a3 h3 a4 h4 hc x0 x1 x2 xo = k0_pay1 (k0_pay6 x0 x1 x2) (k0_pay7 x0 x1 x2) xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz2]
  simp only [View.readAt_eq_ld, h1.read_unread, h2.read_unread, h3.read_unread, h4.read_unread,
    View.ld_unit_zero (S := S1x1514x1602) hz3, View.ld_unit_zero (S := S1x1602x6) hz3,
    View.ld_unit_zero (S := S1x1514x6) hz3, View.ld_unit_zero (S := S1x1) hz2]

/-- The first point: the zero block plus the point's difference of the two reductions. -/
theorem out_first (c : Dev nD) (i : grid0.Coords) (a1 : Memref sig .tc .vmem S1x1514x1602 .f32) (h1 : a1.IsWhole)
    (a2 : Memref sig .tc .vmem S1x1602x6 .f32) (h2 : a2.IsWhole) (a3 : Memref sig .tc .vmem S1x1514x6 .f32) (h3 : a3.IsWhole)
    (a4 : Memref sig .tc .vmem S1x1 .f32) (h4 : a4.IsWhole) (hc : cond0_0 i)
    (x0 : Vec F S1x1514x1602 .f32) (x1 : Vec F S1x1602x6 .f32) (x2 : Vec F S1x1514x6 .f32) :
    out0_A_3 c i a1 h1 a2 h2 a3 h3 a4 h4 hc x0 x1 x2 = k0_pay1 (k0_pay6 x0 x1 x2) (k0_pay7 x0 x1 x2) (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread,
    View.ld_unit_zero (S := S1x1514x1602) hz3, View.ld_unit_zero (S := S1x1602x6) hz3,
    View.ld_unit_zero (S := S1x1514x6) hz3, View.ld_unit_zero (S := S1x1) hz2,
    View.readCov_unit_zero (S := S1x1) _ hz2]

end Cert.KernelIdeal.Acc

end
-- ==== Proof.KernelSum.lean ====
/-
  The kernel's accumulator as a sum over the grid, at the ideal instance.

  Each grid point  t  adds  step t = s1 t - s2 t  (the difference of the body's two reductions of the point's
  blocks) to the (1,1) accumulator, which the first point resets to zero.  So after point  n  the accumulator holds
  0 + ∑_{b ≤ n} step b:  addition of extended reals is associative and commutative, no finiteness is needed here.
-/
import proofs.«127729_j12687333393051_1_alg».proof.Proof.KernelPieces
import Idealize.ShloMosaic.PureOps.Ideal.Laws
import Idealize.ShloMosaic.Lib.ValueIdx

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable (m : (ℓ : Loc nD τ sig) → Buf (Elt Ideal) ℓ)

/-- The three input blocks at a grid point, at their literal types: features, weights, predictions. -/
abbrev fblk (c : Dev nD) (t : Fin cfg0.N) : Vec Ideal S1x1514x1602 .f32 := iblk m c 0 t
abbrev wblk (c : Dev nD) (t : Fin cfg0.N) : Vec Ideal S1x1602x6 .f32 := iblk m c 1 t
abbrev yblk (c : Dev nD) (t : Fin cfg0.N) : Vec Ideal S1x1514x6 .f32 := iblk m c 2 t

/-- What grid point `t` adds to the accumulator. -/
def step (c : Dev nD) (t : Fin cfg0.N) (j : S1x1.Idx) : EReal :=
  k0_pay6 (F := Ideal) (fblk m c t) (wblk m c t) (yblk m c t) j - k0_pay7 (F := Ideal) (fblk m c t) (wblk m c t) (yblk m c t) j

/-- The same with the point a natural number (zero past the grid). -/
def stepN (c : Dev nD) (j : S1x1.Idx) (b : ℕ) : EReal := if h : b < cfg0.N then step m c ⟨b, h⟩ j else 0

/-- The body's last store, read at an index: the old accumulator plus the difference of the two reductions. -/
theorem pay1_apply (A B : FVec Ideal S1x1 .f32) (V : Vec Ideal S1x1 .f32) (j : S1x1.Idx) :
    k0_pay1 (F := Ideal) A B V j = V j + (A j - B j) := by
  show addf (shapeCast S1x1 V shapeCasts_S1x1_S1x1) (subf A B) j = _
  rw [shapeCast_self]
  rfl

/-- After point `n` the accumulator holds zero plus the steps of the points up to `n`. -/
theorem acc_eq (c : Dev nD) (j : S1x1.Idx) : ∀ (n : ℕ) (h : n < cfg0.N),
    outsAt0 m c n h j = 0 + ∑ b ∈ Finset.range (n + 1), stepN m c j b
  | 0, h => by
    have e := (outsAt0_A m c ⟨0, h⟩ rfl).trans
      (out_first (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) _ (iblk m c 0 ⟨0, h⟩) (iblk m c 1 ⟨0, h⟩) (iblk m c 2 ⟨0, h⟩))
    rw [show outsAt0 m c 0 h = _ from e, pay1_apply, Finset.sum_range_one]
    show Ideal.ofBits .f32 0x00000000#32 + _ = _
    rw [Ideal.ofBits_zero_f32]
    unfold stepN
    rw [dif_pos h]
    rfl
  | n + 1, h => by
    have hN : cfg0.N = 32 := N_0
    have hB : ¬(⟨n + 1, h⟩ : Fin cfg0.N).val % 32 = 0 := by dsimp only; omega
    rw [outsAt0_B m c ⟨n + 1, h⟩ hB, out_later, pay1_apply]
    show outsAt0 m c n _ j + _ = _
    rw [acc_eq c j n, Finset.sum_range_succ _ (n + 1), add_assoc]
    congr 2
    unfold stepN
    rw [dif_pos h]
    rfl

end Cert.KernelIdeal.Acc

end
-- ==== Proof.KernelArr.lean ====
/-
  The kernel's (1,1) result array after the region.

  The accumulator's block index never moves, so the block is written back once, after the last grid point, and it is
  the whole array: the array ends holding what the last point left in the staging buffer.
-/
import proofs.«127729_j12687333393051_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- The last grid point. -/
abbrev tLast : Fin cfg0.N := ⟨31, by rw [show cfg0.N = 32 from N_0]; decide⟩

/-- What the last point leaves in the accumulator's staging buffer, as contents of the result array. -/
abbrev lastAcc (c : Dev nD) : Buf (Elt F) ((c : Thread nD τ).loc main_v0) :=
  outsAt0 m c 31 (by rw [show cfg0.N = 32 from N_0]; decide)

/-- The one write-back, after the last point, writes it: block (0, 0) of the (1,1) array is the array. -/
theorem flushed_last (c : Dev nD) (t : Fin cfg0.N) (hf : (cfg0.win 3).flush t = true) :
    (dats m 0 c).flushed 3 t = ((cfg0.win 3).blk t).view.read (Elt F) (lastAcc m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3]
  have hz' : (fun a => win0_3.index tLast a * main_v0.ty.shape.size a) = fun _ => 0 := funext fun a => by fin_cases a <;> decide
  exact (Memref.read_access_unit_zero (Elt F) main_v0 hz' (fun a => by rw [congrFun hz' a]; simp) (lastAcc m c)).symm

/-- So the result array ends holding what the last point left. -/
theorem arr_last (c : Dev nD) : (dats m 0 c).arrAt 3 cfg0.N = lastAcc m c :=
  (dats m 0 c).arrAt_eq_of_cover 3 (lastAcc m c) (flushed_last m c) fun i =>
    ⟨tLast, (flush0_3 tLast).mpr rfl, by
      show i ∈ ((View.whole main_v0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

end Cert.KernelIdeal.Acc

end
-- ==== Proof.BlockReads.lean ====
/-
  The input blocks of a grid point are the batch's slices of the three argument arrays.

  Grid point  t  works on batch  t:  its feature, weight and prediction blocks are rows  (t, ·, ·)  of the arrays
  the launch was given (no host operation precedes the region, so the region finds the arguments untouched).
-/
import proofs.«127729_j12687333393051_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The batch a grid point works on. -/
abbrev batch (t : Fin cfg0.N) : Fin 32 := ⟨t.val, lt_of_lt_of_eq t.isLt N_0⟩

/-- Each window's block index at point `t` is `(t, 0, 0)`: decided over the grid. -/
theorem index_f : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index_w : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index_y : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- The feature block at point `t` reads the feature array at batch `t`. -/
theorem fblk_apply (c : Dev nD) (t : Fin cfg0.N) (i : Fin 1514) (k : Fin 1602) :
    (iblk m c 0 t : Vec F S1x1514x1602 .f32) (ix3 (0 : Fin 1) i k)
      = m ((c : Thread nD τ).loc main_arg4) (ix3 (batch t) i k) := by
  obtain ⟨h0, h1, h2⟩ := index_f t
  unfold iblk
  rw [View.read_apply]
  show V m c main_arg4 _ = m (c.tc.loc main_arg4) _
  refine (congrFun (V_main_arg4 m c) _).trans ?_
  refine congrArg _ ?_
  funext a
  apply Fin.ext
  match a with
  | ⟨0, _⟩ => show win0_0.index t 0 * 1 + 1 * 0 = t.val; rw [h0]; omega
  | ⟨1, _⟩ => show win0_0.index t 1 * 1514 + 1 * i.val = i.val; rw [h1]; omega
  | ⟨2, _⟩ => show win0_0.index t 2 * 1602 + 1 * k.val = k.val; rw [h2]; omega

/-- The weight block at point `t` reads the weight array at batch `t`. -/
theorem wblk_apply (c : Dev nD) (t : Fin cfg0.N) (k : Fin 1602) (q : Fin 6) :
    (iblk m c 1 t : Vec F S1x1602x6 .f32) (ix3 (0 : Fin 1) k q)
      = m ((c : Thread nD τ).loc main_arg3) (ix3 (batch t) k q) := by
  obtain ⟨h0, h1, h2⟩ := index_w t
  unfold iblk
  rw [View.read_apply]
  show V m c main_arg3 _ = m (c.tc.loc main_arg3) _
  refine (congrFun (V_main_arg3 m c) _).trans ?_
  refine congrArg _ ?_
  funext a
  apply Fin.ext
  match a with
  | ⟨0, _⟩ => show win0_1.index t 0 * 1 + 1 * 0 = t.val; rw [h0]; omega
  | ⟨1, _⟩ => show win0_1.index t 1 * 1602 + 1 * k.val = k.val; rw [h1]; omega
  | ⟨2, _⟩ => show win0_1.index t 2 * 6 + 1 * q.val = q.val; rw [h2]; omega

/-- The prediction block at point `t` reads the prediction array at batch `t`. -/
theorem yblk_apply (c : Dev nD) (t : Fin cfg0.N) (i : Fin 1514) (q : Fin 6) :
    (iblk m c 2 t : Vec F S1x1514x6 .f32) (ix3 (0 : Fin 1) i q)
      = m ((c : Thread nD τ).loc main_arg0) (ix3 (batch t) i q) := by
  obtain ⟨h0, h1, h2⟩ := index_y t
  unfold iblk
  rw [View.read_apply]
  show V m c main_arg0 _ = m (c.tc.loc main_arg0) _
  refine (congrFun (V_main_arg0 m c) _).trans ?_
  refine congrArg _ ?_
  funext a
  apply Fin.ext
  match a with
  | ⟨0, _⟩ => show win0_2.index t 0 * 1 + 1 * 0 = t.val; rw [h0]; omega
  | ⟨1, _⟩ => show win0_2.index t 1 * 1514 + 1 * i.val = i.val; rw [h1]; omega
  | ⟨2, _⟩ => show win0_2.index t 2 * 6 + 1 * q.val = q.val; rw [h2]; omega

end Cert.KernelIdeal.Acc

end
-- ==== Proof.PayloadSum.lean ====
/- The kernel body's two scalar reductions, read as plain sums over the extended reals.
   The body casts the three blocks to rank 2, clips the weights to [0, 1] (to [-1, 0] for the second reduction),
   multiplies the (1514×1602) feature block by the clipped (1602×6) weights into a zero accumulator, multiplies
   elementwise by (1 − y) (by y for the second), sums over the 1514 rows and then over the 6 columns. The format
   changes are the identity on extended reals, so each reduction is the triple sum stated in `pay6_apply` / `pay7_apply`.
   One small lemma per non-pointwise operation: the rank-dropping casts, the product's operand indices axis by axis,
   the product at an index, and the two lane sums at an index. -/
import proofs.«127729_j12687333393051_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Acc

open Cert.KernelIdeal Cert.KernelIdeal.Gen

/-! ## The three blocks cast to rank 2 -/

theorem pay3_apply (x0 : Vec Ideal S1x1514x1602 .f32) (i : Fin 1514) (k : Fin 1602) :
    k0_pay3 (F := Ideal) x0 (ix2 i k) = x0 (ix3 (0 : Fin 1) i k) := by
  unfold k0_pay3
  exact shapeCast_1ab_ab_apply x0 _ i k

theorem pay4_apply (x1 : Vec Ideal S1x1602x6 .f32) (k : Fin 1602) (c : Fin 6) :
    k0_pay4 (F := Ideal) x1 (ix2 k c) = x1 (ix3 (0 : Fin 1) k c) := by
  unfold k0_pay4
  exact shapeCast_1ab_ab_apply x1 _ k c

theorem pay5_apply (x2 : Vec Ideal S1x1514x6 .f32) (i : Fin 1514) (c : Fin 6) :
    k0_pay5 (F := Ideal) x2 (ix2 i c) = x2 (ix3 (0 : Fin 1) i c) := by
  unfold k0_pay5
  exact shapeCast_1ab_ab_apply x2 _ i c

/-! ## The product's operand indices, axis by axis -/

theorem lhs_mm_0 (j : S1514x6.Idx) (q : dot_S1514x1602_S1602x6_S1514x6_1_0_0_1_n_n.contr.Idx) :
    (dot_S1514x1602_S1602x6_S1514x6_1_0_0_1_n_n.lhsIdx j q 0).val = (j 0).val := by
  unfold DotDims.lhsIdx
  rw [dif_neg (show ¬(0 : Fin S1514x1602.rank) ∈ dot_S1514x1602_S1602x6_S1514x6_1_0_0_1_n_n.lhsBatch by decide), dif_pos (show (0 : Fin S1514x1602.rank) ∈ dot_S1514x1602_S1602x6_S1514x6_1_0_0_1_n_n.lhsNonContracting by decide)]
  rfl
theorem lhs_mm_1 (j : S1514x6.Idx) (q : dot_S1514x1602_S1602x6_S1514x6_1_0_0_1_n_n.contr.Idx) :
    (dot_S1514x1602_S1602x6_S1514x6_1_0_0_1_n_n.lhsIdx j q 1).val = (q ⟨0, by decide⟩).val :=
  dot_S1514x1602_S1602x6_S1514x6_1_0_0_1_n_n.lhsIdx_val_of_single rfl j q
theorem rhs_mm_0 (j : S1514x6.Idx) (q : dot_S1514x1602_S1602x6_S1514x6_1_0_0_1_n_n.contr.Idx) :
    (dot_S1514x1602_S1602x6_S1514x6_1_0_0_1_n_n.rhsIdx j q 0).val = (q ⟨0, by decide⟩).val :=
  dot_S1514x1602_S1602x6_S1514x6_1_0_0_1_n_n.rhsIdx_val_of_single rfl j q
theorem rhs_mm_1 (j : S1514x6.Idx) (q : dot_S1514x1602_S1602x6_S1514x6_1_0_0_1_n_n.contr.Idx) :
    (dot_S1514x1602_S1602x6_S1514x6_1_0_0_1_n_n.rhsIdx j q 1).val = (j 1).val := by
  unfold DotDims.rhsIdx
  rw [dif_neg (show ¬(1 : Fin S1602x6.rank) ∈ dot_S1514x1602_S1602x6_S1514x6_1_0_0_1_n_n.rhsBatch by decide), dif_pos (show (1 : Fin S1602x6.rank) ∈ dot_S1514x1602_S1602x6_S1514x6_1_0_0_1_n_n.rhsNonContracting by decide)]
  rfl

/-! ## The matrix product read at an index -/

/-- The (1514×1602)·(1602×6) product into the zero accumulator, read at row `i`, column `c`: the sum over the
    1602 contraction positions of the operands' products. -/
theorem matmul_apply_ix (A : FVec Ideal S1514x1602 .bf16) (B : FVec Ideal S1602x6 .bf16) (i : Fin 1514) (c : Fin 6) :
    matmul dot_S1514x1602_S1602x6_S1514x6_1_0_0_1_n_n none A B (constant (F := Ideal) S1514x6 .f32 0x00000000#32) (ix2 i c)
      = ∑ k : Fin 1602, A (ix2 i k) * B (ix2 k c) := by
  simp only [matmul]
  rw [Ideal.matmul_constant_zero_apply, ← Equiv.sum_comp (contrEquiv1 dot_S1514x1602_S1602x6_S1514x6_1_0_0_1_n_n 1602 rfl rfl).symm]
  refine Finset.sum_congr rfl fun k _ => ?_
  have hk := contrEquiv1_symm_val dot_S1514x1602_S1602x6_S1514x6_1_0_0_1_n_n 1602 rfl rfl k
  have el : dot_S1514x1602_S1602x6_S1514x6_1_0_0_1_n_n.lhsIdx (ix2 i c) ((contrEquiv1 dot_S1514x1602_S1602x6_S1514x6_1_0_0_1_n_n 1602 rfl rfl).symm k) = ix2 i k := funext fun a => Fin.ext (by
    match a with
    | ⟨0, _⟩ => exact lhs_mm_0 _ _
    | ⟨1, _⟩ => exact (lhs_mm_1 _ _).trans hk)
  have er : dot_S1514x1602_S1602x6_S1514x6_1_0_0_1_n_n.rhsIdx (ix2 i c) ((contrEquiv1 dot_S1514x1602_S1602x6_S1514x6_1_0_0_1_n_n 1602 rfl rfl).symm k) = ix2 k c := funext fun a => Fin.ext (by
    match a with
    | ⟨0, _⟩ => exact (rhs_mm_0 _ _).trans hk
    | ⟨1, _⟩ => exact rhs_mm_1 _ _)
  rw [el, er]

/-! ## The two lane sums read at an index -/

/-- The sum over the 1514 rows of a (1514×6) vector, read at column `c`. -/
theorem sum_rows_apply (v : FVec Ideal S1514x6 .f32) (h : S1514x6.Reduces [0] S6) (hφ : FKind.Formats .f32)
    (hacc : (0x00000000#32 : BitVec 32) = FKind.add.neutral .f32 hφ) (c : Fin 6) :
    multiReduction .add [0] S6 v 0x00000000#32 h hφ hacc (ix1 c) = ∑ i : Fin 1514, v (ix2 i c) := by
  refine (Ideal.multiReduction_add_single v _ h hφ hacc (ix1 c)).trans ?_
  refine Finset.sum_congr rfl fun i _ => ?_
  exact congrArg v (funext fun a => Fin.ext (by match a with | ⟨0, _⟩ => rfl | ⟨1, _⟩ => rfl))

/-- The sum over the 6 columns of a (1×6) vector, read at its one row. -/
theorem sum_cols_apply (v : FVec Ideal S1x6 .f32) (h : S1x6.Reduces [1] S1) (hφ : FKind.Formats .f32)
    (hacc : (0x00000000#32 : BitVec 32) = FKind.add.neutral .f32 hφ) (p : Fin 1) :
    multiReduction .add [1] S1 v 0x00000000#32 h hφ hacc (ix1 p) = ∑ c : Fin 6, v (ix2 p c) := by
  refine (Ideal.multiReduction_add_single v _ h hφ hacc (ix1 p)).trans ?_
  refine Finset.sum_congr rfl fun c _ => ?_
  exact congrArg v (funext fun a => Fin.ext (by match a with | ⟨0, _⟩ => rfl | ⟨1, _⟩ => rfl))

/-! ## The two scalar reductions -/

theorem pay6_apply (x0 : Vec Ideal S1x1514x1602 .f32) (x1 : Vec Ideal S1x1602x6 .f32) (x2 : Vec Ideal S1x1514x6 .f32) (j : S1x1.Idx) :
    k0_pay6 (F := Ideal) x0 x1 x2 j
      = ∑ c : Fin 6, ∑ i : Fin 1514, (Ideal.ofBits .f32 0x3F800000#32 - x2 (ix3 (0 : Fin 1) i c))
          * ∑ k : Fin 1602, x0 (ix3 (0 : Fin 1) i k)
              * min (Ideal.ofBits .f32 0x3F800000#32) (max (Ideal.ofBits .f32 0x00000000#32) (x1 (ix3 (0 : Fin 1) k c))) := by
  obtain ⟨p, q, rfl⟩ : ∃ (p : Fin 1) (q : Fin 1), j = ix2 p q := ⟨j 0, j 1, eq_ix2 j⟩
  unfold k0_pay6
  refine (shapeCast_a_1a_apply _ _ p q).trans ?_
  refine (sum_cols_apply _ _ _ _ q).trans ?_
  refine Finset.sum_congr rfl fun c _ => ?_
  refine (shapeCast_a_1a_apply _ _ q c).trans ?_
  refine (sum_rows_apply _ _ _ _ c).trans ?_
  refine Finset.sum_congr rfl fun i _ => ?_
  refine (mulf_apply _ _ _).trans ?_
  refine congrArg₂ (fun a b : EReal => a * b) ?_ ?_
  · show Ideal.ofBits .f32 0x3F800000#32 - k0_pay5 (F := Ideal) x2 (ix2 i c) = _
    rw [pay5_apply]
  · refine (matmul_apply_ix _ _ i c).trans ?_
    refine Finset.sum_congr rfl fun k _ => ?_
    show k0_pay3 (F := Ideal) x0 (ix2 i k)
        * min (Ideal.ofBits .f32 0x3F800000#32) (max (Ideal.ofBits .f32 0x00000000#32) (k0_pay4 (F := Ideal) x1 (ix2 k c))) = _
    rw [pay3_apply, pay4_apply]

theorem pay7_apply (x0 : Vec Ideal S1x1514x1602 .f32) (x1 : Vec Ideal S1x1602x6 .f32) (x2 : Vec Ideal S1x1514x6 .f32) (j : S1x1.Idx) :
    k0_pay7 (F := Ideal) x0 x1 x2 j
      = ∑ c : Fin 6, ∑ i : Fin 1514, x2 (ix3 (0 : Fin 1) i c)
          * ∑ k : Fin 1602, x0 (ix3 (0 : Fin 1) i k)
              * min (Ideal.ofBits .f32 0x00000000#32) (max (Ideal.ofBits .f32 0xBF800000#32) (x1 (ix3 (0 : Fin 1) k c))) := by
  obtain ⟨p, q, rfl⟩ : ∃ (p : Fin 1) (q : Fin 1), j = ix2 p q := ⟨j 0, j 1, eq_ix2 j⟩
  unfold k0_pay7
  refine (shapeCast_a_1a_apply _ _ p q).trans ?_
  refine (sum_cols_apply _ _ _ _ q).trans ?_
  refine Finset.sum_congr rfl fun c _ => ?_
  refine (shapeCast_a_1a_apply _ _ q c).trans ?_
  refine (sum_rows_apply _ _ _ _ c).trans ?_
  refine Finset.sum_congr rfl fun i _ => ?_
  refine (mulf_apply _ _ _).trans ?_
  refine congrArg₂ (fun a b : EReal => a * b) ?_ ?_
  · exact pay5_apply x2 i c
  · refine (matmul_apply_ix _ _ i c).trans ?_
    refine Finset.sum_congr rfl fun k _ => ?_
    show k0_pay3 (F := Ideal) x0 (ix2 i k)
        * min (Ideal.ofBits .f32 0x00000000#32) (max (Ideal.ofBits .f32 0xBF800000#32) (k0_pay4 (F := Ideal) x1 (ix2 k c))) = _
    rw [pay3_apply, pay4_apply]

end Cert.KernelIdeal.Acc

end
-- ==== Proof.SumLaw.lean ====
/-
  Finite extended reals and the one law this certificate needs of them.

  An extended real is called finite here when it is the image of a real number.  Finite values are closed under
  addition, subtraction, multiplication, minimum, maximum and finite sums.  Over finite values a sum of differences
  is the difference of the sums:  ∑ (A i - B i) = ∑ A i - ∑ B i.  (With an infinite summand the right side can be
  ⊤ - ⊤ while the left is not, so finiteness is really used.)  A triple sum over three coordinate ranges is the
  sum over the rank-3 index set.
-/
import Idealize.ShloMosaic.PureOps.Ideal
import Idealize.ShloMosaic.Lib.ValueIdx

noncomputable section

namespace Cert.Loss

open Idealize.ShloMosaic Idealize.ShloMosaic.ValueIdx

/-- `x` is the image of a real number. -/
def Fin' (x : EReal) : Prop := ∃ r : ℝ, x = (r : EReal)

theorem fin_coe (r : ℝ) : Fin' (r : EReal) := ⟨r, rfl⟩
theorem fin_zero : Fin' (0 : EReal) := ⟨0, rfl⟩
theorem fin_one : Fin' (1 : EReal) := ⟨1, rfl⟩
theorem fin_neg_one : Fin' (-1 : EReal) := ⟨-1, by simp⟩

theorem fin_add {x y : EReal} (hx : Fin' x) (hy : Fin' y) : Fin' (x + y) := by
  obtain ⟨a, rfl⟩ := hx; obtain ⟨b, rfl⟩ := hy; exact ⟨a + b, (EReal.coe_add a b).symm⟩
theorem fin_sub {x y : EReal} (hx : Fin' x) (hy : Fin' y) : Fin' (x - y) := by
  obtain ⟨a, rfl⟩ := hx; obtain ⟨b, rfl⟩ := hy; exact ⟨a - b, (EReal.coe_sub a b).symm⟩
theorem fin_mul {x y : EReal} (hx : Fin' x) (hy : Fin' y) : Fin' (x * y) := by
  obtain ⟨a, rfl⟩ := hx; obtain ⟨b, rfl⟩ := hy; exact ⟨a * b, (EReal.coe_mul a b).symm⟩
theorem fin_min {x y : EReal} (hx : Fin' x) (hy : Fin' y) : Fin' (min x y) := by
  rcases min_choice x y with h | h <;> rw [h] <;> assumption
theorem fin_max {x y : EReal} (hx : Fin' x) (hy : Fin' y) : Fin' (max x y) := by
  rcases max_choice x y with h | h <;> rw [h] <;> assumption
theorem fin_sum {ι : Type*} (s : Finset ι) (g : ι → EReal) (h : ∀ i ∈ s, Fin' (g i)) : Fin' (∑ i ∈ s, g i) :=
  Finset.sum_induction g Fin' (fun _ _ => fin_add) fin_zero h

/-- Over finite values a sum of differences is the difference of the sums. -/
theorem sum_sub_of_fin {ι : Type*} [DecidableEq ι] (s : Finset ι) (A B : ι → EReal)
    (hA : ∀ i, Fin' (A i)) (hB : ∀ i, Fin' (B i)) :
    ∑ i ∈ s, (A i - B i) = ∑ i ∈ s, A i - ∑ i ∈ s, B i := by
  induction s using Finset.induction_on with
  | empty => simp
  | insert a s ha ih =>
    rw [Finset.sum_insert ha, Finset.sum_insert ha, Finset.sum_insert ha, ih]
    obtain ⟨x, hx⟩ := hA a
    obtain ⟨y, hy⟩ := hB a
    obtain ⟨u, hu⟩ := fin_sum s A (fun i _ => hA i)
    obtain ⟨v, hv⟩ := fin_sum s B (fun i _ => hB i)
    rw [hx, hy, hu, hv, ← EReal.coe_sub, ← EReal.coe_sub, ← EReal.coe_add, ← EReal.coe_add, ← EReal.coe_add,
      ← EReal.coe_sub]
    congr 1
    ring

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (g : (⟨3, ![n0, n1, n2]⟩ : Shape).Idx → M) :
    ∑ i, g i = ∑ a : Fin n0, ∑ b : Fin n1, ∑ c : Fin n2, g (ix3 a b c) := by
  rw [← Equiv.sum_comp (idxEquiv3 (n0 := n0) (n1 := n1) (n2 := n2)).symm g, Fintype.sum_prod_type]
  refine Finset.sum_congr rfl fun a _ => ?_
  rw [Fintype.sum_prod_type]
  rfl

end Cert.Loss

end
-- ==== Proof.Bridge.lean ====
/-
  The two arrangements of the second loss are one number when the inputs are finite.

  Write  P b i q = (1 - y(b,i,q)) · ∑_k f(b,i,k) · min 1 (max 0 w(b,k,q))  and
         N b i q = y(b,i,q) · ∑_k f(b,i,k) · min 0 (max (-1) w(b,k,q)).
  The kernel adds, batch by batch,  (∑_q ∑_i P b i q) - (∑_q ∑_i N b i q)  to a zero accumulator; the reference takes
  (0 + ∑ P) - (0 + ∑ N)  over the whole index set.  Over finite values a sum of differences is the difference of
  the sums, and the order of summation is free.
-/
import proofs.«127729_j12687333393051_1_alg».proof.Proof.SumLaw

noncomputable section

namespace Cert.Loss

open Idealize.ShloMosaic Idealize.ShloMosaic.ValueIdx

variable (Y : (⟨3, ![32, 1514, 6]⟩ : Shape).Idx → EReal) (W : (⟨3, ![32, 1602, 6]⟩ : Shape).Idx → EReal)
  (Fe : (⟨3, ![32, 1514, 1602]⟩ : Shape).Idx → EReal) (one mone : EReal)

/-- The positive-part summand at batch `b`, row `i`, class `q`. -/
def posAt (b : Fin 32) (i : Fin 1514) (q : Fin 6) : EReal :=
  (one - Y (ix3 b i q)) * ∑ k : Fin 1602, Fe (ix3 b i k) * min one (max 0 (W (ix3 b k q)))

/-- The negative-part summand at batch `b`, row `i`, class `q`. -/
def negAt (b : Fin 32) (i : Fin 1514) (q : Fin 6) : EReal :=
  Y (ix3 b i q) * ∑ k : Fin 1602, Fe (ix3 b i k) * min 0 (max mone (W (ix3 b k q)))

theorem fin_posAt (hY : ∀ i, Fin' (Y i)) (hW : ∀ i, Fin' (W i)) (hF : ∀ i, Fin' (Fe i)) (h1 : Fin' one)
    (b : Fin 32) (i : Fin 1514) (q : Fin 6) : Fin' (posAt Y W Fe one b i q) :=
  fin_mul (fin_sub h1 (hY _)) (fin_sum _ _ fun k _ => fin_mul (hF _) (fin_min h1 (fin_max fin_zero (hW _))))

theorem fin_negAt (hY : ∀ i, Fin' (Y i)) (hW : ∀ i, Fin' (W i)) (hF : ∀ i, Fin' (Fe i)) (hm : Fin' mone)
    (b : Fin 32) (i : Fin 1514) (q : Fin 6) : Fin' (negAt Y W Fe mone b i q) :=
  fin_mul (hY _) (fin_sum _ _ fun k _ => fin_mul (hF _) (fin_min fin_zero (fin_max hm (hW _))))

/-- The kernel's batch-by-batch accumulation is the reference's difference of two total sums. -/
theorem accumulated_eq_total (hY : ∀ i, Fin' (Y i)) (hW : ∀ i, Fin' (W i)) (hF : ∀ i, Fin' (Fe i))
    (h1 : Fin' one) (hm : Fin' mone) :
    0 + ∑ b : Fin 32, ((∑ q : Fin 6, ∑ i : Fin 1514, posAt Y W Fe one b i q)
        - (∑ q : Fin 6, ∑ i : Fin 1514, negAt Y W Fe mone b i q))
      = (0 + ∑ x : (⟨3, ![32, 1514, 6]⟩ : Shape).Idx, posAt Y W Fe one (x 0) (x 1) (x 2))
        - (0 + ∑ x : (⟨3, ![32, 1514, 6]⟩ : Shape).Idx, negAt Y W Fe mone (x 0) (x 1) (x 2)) := by
  have hA : ∀ b : Fin 32, Fin' (∑ q : Fin 6, ∑ i : Fin 1514, posAt Y W Fe one b i q) := fun b =>
    fin_sum _ _ fun q _ => fin_sum _ _ fun i _ => fin_posAt Y W Fe one hY hW hF h1 b i q
  have hB : ∀ b : Fin 32, Fin' (∑ q : Fin 6, ∑ i : Fin 1514, negAt Y W Fe mone b i q) := fun b =>
    fin_sum _ _ fun q _ => fin_sum _ _ fun i _ => fin_negAt Y W Fe mone hY hW hF hm b i q
  rw [sum_sub_of_fin Finset.univ _ _ hA hB, zero_add, zero_add, zero_add,
    sum_idx3 (fun x : (⟨3, ![32, 1514, 6]⟩ : Shape).Idx => posAt Y W Fe one (x 0) (x 1) (x 2)),
    sum_idx3 (fun x : (⟨3, ![32, 1514, 6]⟩ : Shape).Idx => negAt Y W Fe mone (x 0) (x 1) (x 2))]
  congr 1
  · refine Finset.sum_congr rfl fun b _ => ?_
    rw [Finset.sum_comm]
  · refine Finset.sum_congr rfl fun b _ => ?_
    rw [Finset.sum_comm]

end Cert.Loss

end
-- ==== Proof.KernelLoss.lean ====
/-
  The kernel's second loss as a sum over the batches, in terms of the argument arrays.

  The result array's one entry is  0 + ∑_b (∑_q ∑_i P b i q - ∑_q ∑_i N b i q):  the accumulator after the last
  point is zero plus the steps of all 32 points, a step is the difference of the body's two reductions of the
  point's blocks, each reduction is a triple sum over the block, and the blocks of point  b  are batch  b  of the
  feature, weight and prediction arrays.
-/
import proofs.«127729_j12687333393051_1_alg».proof.Proof.KernelSum
import proofs.«127729_j12687333393051_1_alg».proof.Proof.KernelArr
import proofs.«127729_j12687333393051_1_alg».proof.Proof.BlockReads
import proofs.«127729_j12687333393051_1_alg».proof.Proof.PayloadSum
import proofs.«127729_j12687333393051_1_alg».proof.Proof.Bridge

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-- The prediction, weight and feature arrays the launch was given, at their literal types. -/
abbrev Yarr (c : Dev nD) : Vec Ideal S32x1514x6 .f32 := m ((c : Thread nD τ).loc main_arg0)
abbrev Warr (c : Dev nD) : Vec Ideal S32x1602x6 .f32 := m ((c : Thread nD τ).loc main_arg3)
abbrev Farr (c : Dev nD) : Vec Ideal S32x1514x1602 .f32 := m ((c : Thread nD τ).loc main_arg4)

/-- The clip bounds that are not zero. -/
abbrev one : EReal := Ideal.ofBits .f32 0x3F800000#32
abbrev mone : EReal := Ideal.ofBits .f32 0xBF800000#32

theorem fblk_eq (c : Dev nD) (t : Fin cfg0.N) (i : Fin 1514) (k : Fin 1602) :
    fblk m c t (ix3 (0 : Fin 1) i k) = Farr m c (ix3 (batch t) i k) := fblk_apply m c t i k
theorem wblk_eq (c : Dev nD) (t : Fin cfg0.N) (k : Fin 1602) (q : Fin 6) :
    wblk m c t (ix3 (0 : Fin 1) k q) = Warr m c (ix3 (batch t) k q) := wblk_apply m c t k q
theorem yblk_eq (c : Dev nD) (t : Fin cfg0.N) (i : Fin 1514) (q : Fin 6) :
    yblk m c t (ix3 (0 : Fin 1) i q) = Yarr m c (ix3 (batch t) i q) := yblk_apply m c t i q

/-- One grid point's step, in terms of the argument arrays at the point's batch. -/
theorem step_eq (c : Dev nD) (t : Fin cfg0.N) (j : S1x1.Idx) :
    step m c t j
      = (∑ q : Fin 6, ∑ i : Fin 1514, Cert.Loss.posAt (Yarr m c) (Warr m c) (Farr m c) one (batch t) i q)
        - (∑ q : Fin 6, ∑ i : Fin 1514, Cert.Loss.negAt (Yarr m c) (Warr m c) (Farr m c) mone (batch t) i q) := by
  unfold step
  rw [pay6_apply, pay7_apply]
  unfold Cert.Loss.posAt Cert.Loss.negAt
  simp only [fblk_eq, wblk_eq, yblk_eq, Ideal.ofBits_zero_f32]

/-- The result array's entry: zero plus, batch by batch, the difference of the two triple sums. -/
theorem kernel_l2 (c : Dev nD) (j : S1x1.Idx) :
    (dats m 0 c).arrAt 3 cfg0.N j
      = 0 + ∑ b : Fin 32, ((∑ q : Fin 6, ∑ i : Fin 1514, Cert.Loss.posAt (Yarr m c) (Warr m c) (Farr m c) one b i q)
          - (∑ q : Fin 6, ∑ i : Fin 1514, Cert.Loss.negAt (Yarr m c) (Warr m c) (Farr m c) mone b i q)) := by
  rw [arr_last m c]
  show outsAt0 m c 31 _ j = _
  rw [acc_eq m c j 31 _, Finset.sum_range]
  refine congrArg (fun s : EReal => 0 + s) (Finset.sum_congr rfl fun b _ => ?_)
  have hb : (b : ℕ) < cfg0.N := lt_of_lt_of_eq b.isLt N_0.symm
  unfold stepN
  rw [dif_pos hb, step_eq]

end Cert.KernelIdeal.Acc

end
-- ==== Proof.RefLoss.lean ====
/-
  The reference's scalar second loss, read as two total sums.

  The reference clips the weights, contracts the features with them batch by batch, multiplies by (1 - y) resp. y,
  sums each product array over all three axes from zero, and subtracts.  Read entry by entry this is
  (0 + ∑ P) - (0 + ∑ N)  with the summands  P, N  of the arithmetic module.
-/
import proofs.«127729_j12687333393051_1_alg».proof.Proof.RefRead
import proofs.«127729_j12687333393051_1_alg».proof.Proof.Bridge
import Idealize.ShloMosaic.PureOps.Ideal.Laws

noncomputable section

open Idealize.ShloMosaic Idealize.ShloMosaic.TcCoe Idealize.ShloMosaic.ValueIdx

namespace Cert.Loss

open Cert.ReferenceIdeal Cert.ReferenceIdeal.Gen Cert.ReferenceIdeal.ReadP

/-- The two clip bounds that are not zero, as the extended reals their patterns denote. -/
abbrev one : EReal := Ideal.ofBits .f32 0x3F800000#32
abbrev mone : EReal := Ideal.ofBits .f32 0xBF800000#32

/-- The weights clipped to [0, 1], entry by entry. -/
theorem clip_pos (x3 : (⟨S32x1602x6, .f32⟩ : BufTy).Contents (Elt Ideal)) (p : S32x1602x6.Idx) :
    val_main_v0 (F := Ideal) x3 p = min one (max 0 (x3 p)) := by
  rw [val_main_v0_apply, val_main_call0_v4_apply, val_main_call0_v3_apply, val_main_cst_0_apply, val_main_call0_v2_apply,
    val_main_call0_v1_apply, val_main_call0_v0_apply, val_main_cst_apply]
  show min (Ideal.ofBits .f32 0x3F800000#32) (max (Ideal.ofBits .f32 0x00000000#32) (x3 p)) = _
  rw [Ideal.ofBits_zero_f32]

/-- The weights clipped to [-1, 0], entry by entry. -/
theorem clip_neg (x3 : (⟨S32x1602x6, .f32⟩ : BufTy).Contents (Elt Ideal)) (p : S32x1602x6.Idx) :
    val_main_v1 (F := Ideal) x3 p = min 0 (max mone (x3 p)) := by
  rw [val_main_v1_apply, val_main_call1_v4_apply, val_main_call1_v3_apply, val_main_cst_2_apply, val_main_call1_v2_apply,
    val_main_call1_v1_apply, val_main_call1_v0_apply, val_main_cst_1_apply]
  show min (Ideal.ofBits .f32 0x00000000#32) (max (Ideal.ofBits .f32 0xBF800000#32) (x3 p)) = _
  rw [Ideal.ofBits_zero_f32]

/-- The contraction's operand indices at output entry (b, i, q) and contraction coordinate k are (b, i, k) and (b, k, q). -/
theorem lidx2_ix3 (b : Fin 32) (i : Fin 1514) (q : Fin 6) (k : Fin 1602) : lidx_main_v2 (ix3 b i q) k = ix3 b i k :=
  funext fun a => by match a with | ⟨0, _⟩ => rfl | ⟨1, _⟩ => rfl | ⟨2, _⟩ => rfl
theorem ridx2_ix3 (b : Fin 32) (i : Fin 1514) (q : Fin 6) (k : Fin 1602) : ridx_main_v2 (ix3 b i q) k = ix3 b k q :=
  funext fun a => by match a with | ⟨0, _⟩ => rfl | ⟨1, _⟩ => rfl | ⟨2, _⟩ => rfl
theorem lidx3_ix3 (b : Fin 32) (i : Fin 1514) (q : Fin 6) (k : Fin 1602) : lidx_main_v3 (ix3 b i q) k = ix3 b i k :=
  funext fun a => by match a with | ⟨0, _⟩ => rfl | ⟨1, _⟩ => rfl | ⟨2, _⟩ => rfl
theorem ridx3_ix3 (b : Fin 32) (i : Fin 1514) (q : Fin 6) (k : Fin 1602) : ridx_main_v3 (ix3 b i q) k = ix3 b k q :=
  funext fun a => by match a with | ⟨0, _⟩ => rfl | ⟨1, _⟩ => rfl | ⟨2, _⟩ => rfl

/-- The positive product array's entry is the summand `posAt`. -/
theorem ref_pos (x0 : (⟨S32x1514x6, .f32⟩ : BufTy).Contents (Elt Ideal)) (x3 : (⟨S32x1602x6, .f32⟩ : BufTy).Contents (Elt Ideal))
    (x4 : (⟨S32x1514x1602, .f32⟩ : BufTy).Contents (Elt Ideal)) (x : S32x1514x6.Idx) :
    val_main_v6 (F := Ideal) x0 x3 x4 x = posAt x0 x3 x4 one (x 0) (x 1) (x 2) := by
  obtain ⟨b, i, q, rfl⟩ : ∃ (b : Fin 32) (i : Fin 1514) (q : Fin 6), x = ix3 b i q := ⟨x 0, x 1, x 2, eq_ix3 x⟩
  show _ = posAt x0 x3 x4 one b i q
  rw [val_main_v6_apply, val_main_v5_apply, val_main_v4_apply, val_main_cst_3_apply, val_main_v2_apply]
  unfold posAt
  refine congrArg (fun s => (Ideal.ofBits .f32 0x3F800000#32 - x0 (ix3 b i q)) * s) (Finset.sum_congr rfl fun k _ => ?_)
  rw [clip_pos, lidx2_ix3, ridx2_ix3]

/-- The negative product array's entry is the summand `negAt`. -/
theorem ref_neg (x0 : (⟨S32x1514x6, .f32⟩ : BufTy).Contents (Elt Ideal)) (x3 : (⟨S32x1602x6, .f32⟩ : BufTy).Contents (Elt Ideal))
    (x4 : (⟨S32x1514x1602, .f32⟩ : BufTy).Contents (Elt Ideal)) (x : S32x1514x6.Idx) :
    val_main_v8 (F := Ideal) x0 x3 x4 x = negAt x0 x3 x4 mone (x 0) (x 1) (x 2) := by
  obtain ⟨b, i, q, rfl⟩ : ∃ (b : Fin 32) (i : Fin 1514) (q : Fin 6), x = ix3 b i q := ⟨x 0, x 1, x 2, eq_ix3 x⟩
  show _ = negAt x0 x3 x4 mone b i q
  rw [val_main_v8_apply, val_main_v3_apply]
  unfold negAt
  refine congrArg (fun s => x0 (ix3 b i q) * s) (Finset.sum_congr rfl fun k _ => ?_)
  rw [clip_neg, lidx3_ix3, ridx3_ix3]

/-- The reference's scalar second loss is the difference of the two total sums, each taken from zero. -/
theorem ref_l2 (x0 : (⟨S32x1514x6, .f32⟩ : BufTy).Contents (Elt Ideal)) (x3 : (⟨S32x1602x6, .f32⟩ : BufTy).Contents (Elt Ideal))
    (x4 : (⟨S32x1514x1602, .f32⟩ : BufTy).Contents (Elt Ideal)) (j : S_.Idx) :
    val_main_v10 (F := Ideal) x0 x3 x4 j
      = (0 + ∑ x : (⟨3, ![32, 1514, 6]⟩ : Shape).Idx, posAt x0 x3 x4 one (x 0) (x 1) (x 2))
        - (0 + ∑ x : (⟨3, ![32, 1514, 6]⟩ : Shape).Idx, negAt x0 x3 x4 mone (x 0) (x 1) (x 2)) := by
  rw [val_main_v10_apply, val_main_v7_apply, val_main_v9_apply, val_main_cst_4_apply, val_main_cst_5_apply]
  show (Ideal.ofBits .f32 0x00000000#32 + _) - (Ideal.ofBits .f32 0x00000000#32 + _) = _
  rw [Ideal.ofBits_zero_f32]
  refine congrArg₂ (fun s t => (0 + s) - (0 + t)) (Finset.sum_congr rfl fun x _ => ref_pos x0 x3 x4 x)
    (Finset.sum_congr rfl fun x _ => ref_neg x0 x3 x4 x)

end Cert.Loss

end
-- ==== Proof.FiniteInputs.lean ====
/-
  From the printed precondition "every float input is finite" to "every entry is the image of a real number".

  The printed predicate is the conjunction, over the four float arrays, of "all entries x satisfy |x| < +∞".  At the
  extended reals |x| is max x (-x) and the comparison is the order's <; the pattern 0x7F800000 denotes ⊤.  An extended
  real with max x (-x) < ⊤ is neither ⊤ nor ⊥ (at ⊥ the negation is ⊤), hence a real.  A reduction by "and" over all
  axes that came out 1 met a 1 at every entry, so the entry fact holds at every index.
-/
import proofs.«127729_j12687333393051_1_alg».proof.Pre_finite_inputs
import proofs.«127729_j12687333393051_1_alg».proof.Proof.Gen.Pre_finite_inputs
import proofs.«127729_j12687333393051_1_alg».proof.Proof.SumLaw
import Idealize.ShloMosaic.Lib.ReduceAll
import Idealize.ShloMosaic.Lib.ValueIdx

noncomputable section

open Idealize.ShloMosaic

namespace Cert.Loss

/-- An extended real whose absolute value `max x (-x)` lies below `⊤` is a real: `⊤` fails at once, and `⊥` fails
    because its negation is `⊤`. -/
theorem fin_of_abs_lt_top (x : EReal) (h : max x (-x) < ⊤) : Fin' x := by
  induction x using EReal.rec with
  | bot => simp at h
  | top => simp at h
  | coe r => exact ⟨r, rfl⟩

/-- The 32-bit pattern of +∞ denotes `⊤`. -/
theorem ofBits_inf : Ideal.ofBits .f32 0x7F800000#32 = ⊤ := by simp [Ideal.ofBits, Ideal.ieee]

/-- One entry: if the comparison `|x| < +∞` came out 1, then `x` is a real. -/
theorem fin_of_cmp_one (x : Ideal .f32)
    (h : FloatOps.cmpf .olt (FloatOps.hostAbsf x) (FloatOps.ofBits (F := Ideal) .f32 0x7F800000#32) = 1#1) :
    Fin' x := by
  change Ideal.cmp .olt (max (x : EReal) (-(x : EReal))) (Ideal.ofBits .f32 0x7F800000#32) = 1#1 at h
  rw [ofBits_inf] at h
  unfold Ideal.cmp at h
  by_cases hlt : max (x : EReal) (-(x : EReal)) < ⊤
  · exact fin_of_abs_lt_top x hlt
  · simp [hlt] at h

/-- The scalar shape has one index. -/
instance : Subsingleton Cert.Pre_finite_inputs.S_.Idx := ⟨fun a b => funext fun d => d.elim0⟩

/-- One array: if the reduction by "and", over all axes, of the entrywise comparisons `|x| < +∞` came out 1, then every
    entry is a real. -/
theorem fin_of_all {s : Shape} {axes : List (Fin s.rank)}
    (dims : Fin Cert.Pre_finite_inputs.S_.rank → Fin s.rank)
    (hb : Cert.Pre_finite_inputs.S_.BroadcastsInDim s dims) (hr : s.ReducesTo axes Cert.Pre_finite_inputs.S_)
    (hu : 0 < Cert.Pre_finite_inputs.S_.numel) (a : FVec Ideal s .f32)
    (h : Host.reduce IntOp.andi
          (cmpf .olt (Host.absf a)
            (broadcastInDim s dims hb (constant Cert.Pre_finite_inputs.S_ .f32 0x7F800000#32)))
          (constantI Cert.Pre_finite_inputs.S_ 1 1#1) hr hu ValueIdx.ix0 = 1#1) :
    ∀ i, Fin' (a i) := fun i =>
  fin_of_cmp_one (a i) (Host.reduce_andi_all _ _ hr hu _ h i)

/-- The printed precondition gives: every entry of the first, fourth and fifth arrays is a real. -/
theorem fin_of_finite_inputs
    (a0 : FVec Ideal Cert.Pre_finite_inputs.S32x1514x6 .f32) (a1 : FVec Ideal Cert.Pre_finite_inputs.S32x512x6 .f32)
    (a2 : IVec Cert.Pre_finite_inputs.S32x512 32) (a3 : FVec Ideal Cert.Pre_finite_inputs.S32x1602x6 .f32)
    (a4 : FVec Ideal Cert.Pre_finite_inputs.S32x1514x1602 .f32)
    (h : Cert.Pre_finite_inputs.fn (F := Ideal) a0 a1 a2 a3 a4 = fun _ => 1#1) :
    (∀ i, Fin' (a0 i)) ∧ (∀ i, Fin' (a3 i)) ∧ (∀ i, Fin' (a4 i)) := by
  have h0 := congrFun h ValueIdx.ix0
  dsimp only [Cert.Pre_finite_inputs.fn, Cert.Pre_finite_inputs.fn_part1] at h0
  obtain ⟨h013, h4⟩ := IntOp.andi_eq_one.1 h0
  obtain ⟨h01, h3⟩ := IntOp.andi_eq_one.1 h013
  obtain ⟨h0', _⟩ := IntOp.andi_eq_one.1 h01
  exact ⟨fin_of_all _ _ _ _ a0 h0', fin_of_all _ _ _ _ a3 h3, fin_of_all _ _ _ _ a4 h4⟩

end Cert.Loss

end
-- ==== Proof.Consts.lean ====
/-
  The two clip bounds that are not zero denote the reals 1 and -1, so they are finite extended reals.
-/
import proofs.«127729_j12687333393051_1_alg».proof.Proof.SumLaw

noncomputable section

namespace Cert.Loss

open Idealize.ShloMosaic

/-- The pattern of `1.0` denotes the real 1. -/
theorem ofBits_one : Ideal.ofBits .f32 0x3F800000#32 = ((1 : ℝ) : EReal) := by
  simp [Ideal.ofBits, Ideal.ieee, -EReal.coe_mul]; norm_num

/-- The pattern of `-1.0` denotes the real -1. -/
theorem ofBits_neg_one : Ideal.ofBits .f32 0xBF800000#32 = ((-1 : ℝ) : EReal) := by
  simp [Ideal.ofBits, Ideal.ieee, -EReal.coe_mul]; norm_num

theorem fin_ofBits_one : Fin' (Ideal.ofBits .f32 0x3F800000#32) := ⟨1, ofBits_one⟩
theorem fin_ofBits_neg_one : Fin' (Ideal.ofBits .f32 0xBF800000#32) := ⟨-1, ofBits_neg_one⟩

end Cert.Loss

end
-- ==== Proof.lean ====
/-
  The kernel and the reference compute the same pair (loss, gathered predictions) over the extended reals, for
  finite inputs.

  Both return  0.9 · loss1 + 0.1 · loss2  and the predictions gathered along axis 1; loss1 and the gather are the
  same host operations on the same arrays in both programs (`Loss.mix`, `Loss.pred`), so everything rests on the
  scalar loss2.  With  P b i q = (1 - y(b,i,q)) · ∑_k f(b,i,k) · clip₀¹ w(b,k,q)  and
  N b i q = y(b,i,q) · ∑_k f(b,i,k) · clip₋₁⁰ w(b,k,q),  the kernel walks the 32 batches, adding
  ∑_q ∑_i P b i q - ∑_q ∑_i N b i q  to an accumulator it first sets to zero, while the reference forms
  (0 + ∑ P) - (0 + ∑ N)  over all entries at once.  For finite inputs every partial sum is a real number, a sum of
  differences is the difference of the sums, and the two agree (`Loss.accumulated_eq_total`).  Finiteness is really
  needed: with an infinite entry one side can be ⊤ - ⊤.

  The three frames: the kernel's two are the generated frame runs; the reference's is its run with the results
  dropped.  The idealization changes no operation, so `preserves` has nothing to state.
-/
import proofs.«127729_j12687333393051_1_alg».proof.Defs
import proofs.«127729_j12687333393051_1_alg».proof.Proof.Gen.Kernel
import proofs.«127729_j12687333393051_1_alg».proof.Proof.Gen.Kernel.Frame
import proofs.«127729_j12687333393051_1_alg».proof.Proof.Gen.KernelIdeal
import proofs.«127729_j12687333393051_1_alg».proof.Proof.Gen.KernelIdeal.Frame
import proofs.«127729_j12687333393051_1_alg».proof.Proof.Gen.ReferenceIdeal
import proofs.«127729_j12687333393051_1_alg».proof.Proof.Gen.Pre_finite_inputs
import proofs.«127729_j12687333393051_1_alg».proof.Proof.RefImports
import proofs.«127729_j12687333393051_1_alg».proof.Proof.KernelRun
import proofs.«127729_j12687333393051_1_alg».proof.Proof.KernelLoss
import proofs.«127729_j12687333393051_1_alg».proof.Proof.RefLoss
import proofs.«127729_j12687333393051_1_alg».proof.Proof.FiniteInputs
import proofs.«127729_j12687333393051_1_alg».proof.Proof.Consts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- For finite inputs the reference's scalar second loss is the scalar the kernel program reshapes its result
    array to: the one entry of either is the same extended real. -/
theorem second_loss_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.ReadP.val_main_v10 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Acc.l2K m c := by
  funext j
  rw [Cert.Loss.ref_l2]
  show _ = (Cert.KernelIdeal.Gen.dats m 0 c).arrAt 3 Cert.KernelIdeal.cfg0.N (Shape.reshapeEquiv _ j)
  rw [Cert.KernelIdeal.Acc.kernel_l2]
  obtain ⟨hY, hW, hF⟩ := Cert.Loss.fin_of_finite_inputs _ _ _ _ _ (hpre c)
  exact (Cert.Loss.accumulated_eq_total _ _ _ _ _ hY hW hF Cert.Loss.fin_ofBits_one Cert.Loss.fin_ofBits_neg_one).symm

theorem algebraic : Cert.algebraic_KernelIdeal_ReferenceIdeal := by
  intro m ρ m' ρ' hpre hagree
  refine ⟨fun c => Cert.Loss.mix (Cert.KernelIdeal.Acc.l2K m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Loss.pred
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Acc.kernel_run (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v27_eq, Cert.Loss.ref_mix, (hagree c).1, (hagree c).2.1, (hagree c).2.2.1,
      (hagree c).2.2.2.1, (hagree c).2.2.2.2, second_loss_eq m hpre c]
  · rw [(hagree c).1, (hagree c).2.2.1]
    exact Cert.ReferenceIdeal.ReadP.val_main_v13_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
